-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S64x128 : Shape := ⟨2, ![64, 128]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S16x4096x128 .f32) (main_arg1 : FVec F S64x128 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S16x4096x128 : Shape := ⟨3, ![16, 4096, 128]⟩
abbrev S64x128 : Shape := ⟨2, ![64, 128]⟩
abbrev S65536x128 : Shape := ⟨2, ![65536, 128]⟩
abbrev S4096x128 : Shape := ⟨2, ![4096, 128]⟩
abbrev S64 : Shape := ⟨1, ![64]⟩
abbrev S64x1 : Shape := ⟨2, ![64, 1]⟩
abbrev S4096 : Shape := ⟨1, ![4096]⟩
abbrev S4096x1 : Shape := ⟨2, ![4096, 1]⟩
abbrev S128x64 : Shape := ⟨2, ![128, 64]⟩
abbrev S4096x64 : Shape := ⟨2, ![4096, 64]⟩

abbrev nBuf : Space → Nat
  | .hbm => 5
  | .vmem => 5
  | .smem => 0
  | _ => 0

abbrev bufTy : (tb : Table) → Fin (tcTables nBuf tb) → BufTy
  | .hbm, ⟨0, _⟩ => ⟨S16x4096x128, .f32⟩
  | .hbm, ⟨1, _⟩ => ⟨S64x128, .f32⟩
  | .hbm, ⟨2, _⟩ => ⟨S65536x128, .f32⟩
  | .hbm, ⟨3, _⟩ => ⟨S65536x128, .f32⟩
  | .hbm, ⟨4, _⟩ => ⟨S16x4096x128, .f32⟩
  | .local _ .vmem, ⟨0, _⟩ => ⟨S4096x128, .f32⟩
  | .local _ .vmem, ⟨1, _⟩ => ⟨S4096x128, .f32⟩
  | .local _ .vmem, ⟨2, _⟩ => ⟨S64x128, .f32⟩
  | .local _ .vmem, ⟨3, _⟩ => ⟨S4096x128, .f32⟩
  | .local _ .vmem, ⟨4, _⟩ => ⟨S4096x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x4096x128_S65536x128 : S16x4096x128.ShapeCasts S65536x128
  shapeCasts_S65536x128_S16x4096x128 : S65536x128.ShapeCasts S16x4096x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S64x128_S64x128_0_0 : ∀ a, (![0, 0] : Fin 2 → Nat) a + S64x128.size a ≤ S64x128.size a
  h_S64x128 : 0 < S64x128.numel
  reduces_S64x128_S64 : S64x128.Reduces [1] S64
  shapeCasts_S64_S64x1 : S64.ShapeCasts S64x1
  broadcasts_S64x1_S64x128 : S64x1.Broadcasts S64x128
  reduces_S4096x128_S4096 : S4096x128.Reduces [1] S4096
  shapeCasts_S4096_S4096x1 : S4096.ShapeCasts S4096x1
  broadcasts_S4096x1_S4096x128 : S4096x1.Broadcasts S4096x128
  transposes_S64x128_p1_0_S128x64 : S64x128.Transposes [1, 0] S128x64
  reduces_S4096x64_S4096 : S4096x64.Reduces [1] S4096
  broadcasts_S4096x1_S4096x64 : S4096x1.Broadcasts S4096x64
  dot_S4096x128_S128x64_S4096x64_1_0_0_1_n_n_wf : DotDims.WF S4096x128 S128x64 S4096x64 [1] [0] [0] [1] [] []
  dot_S4096x64_S64x128_S4096x128_1_0_0_1_n_n_wf : DotDims.WF S4096x64 S64x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S65536x128.size a
  hwx0_2 : ∀ i : grid0.Coords, EltTy.bits .f32 = 32 ∨ (Rect.block (s := S65536x128) S4096x128.size (cc0_transform_2 i) (hinb0_2 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_call0_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S64x128 : Shape := ⟨2, ![64, 128]⟩
abbrev S_ : Shape := ⟨0, ![]⟩
abbrev S16x4096 : Shape := ⟨2, ![16, 4096]⟩
abbrev S16x4096x1 : Shape := ⟨3, ![16, 4096, 1]⟩
abbrev S65536x128 : Shape := ⟨2, ![65536, 128]⟩
abbrev S64 : Shape := ⟨1, ![64]⟩
abbrev S64x1 : Shape := ⟨2, ![64, 1]⟩
abbrev S128x64 : Shape := ⟨2, ![128, 64]⟩
abbrev S65536x64 : Shape := ⟨2, ![65536, 64]⟩
abbrev S65536 : Shape := ⟨1, ![65536]⟩
abbrev S65536x1 : Shape := ⟨2, ![65536, 1]⟩

abbrev nBuf : Space → Nat
  | .hbm => 45
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S64x128, .f32⟩
  | .hbm, ⟨2, _⟩ => ⟨S16x4096x128, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S16x4096x128, .f32⟩
  | .hbm, ⟨11, _⟩ => ⟨S16x4096x128, .f32⟩
  | .hbm, ⟨12, _⟩ => ⟨S65536x128, .f32⟩
  | .hbm, ⟨13, _⟩ => ⟨S64x128, .f32⟩
  | .hbm, ⟨14, _⟩ => ⟨S_, .f32⟩
  | .hbm, ⟨15, _⟩ => ⟨S64, .f32⟩
  | .hbm, ⟨16, _⟩ => ⟨S64x1, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S64x128, .f32⟩
  | .hbm, ⟨22, _⟩ => ⟨S64x128, .f32⟩
  | .hbm, ⟨23, _⟩ => ⟨S128x64, .f32⟩
  | .hbm, ⟨24, _⟩ => ⟨S65536x64, .f32⟩
  | .hbm, ⟨25, _⟩ => ⟨S_, .f32⟩
  | .hbm, ⟨26, _⟩ => ⟨S65536x64, .f32⟩
  | .hbm, ⟨27, _⟩ => ⟨S65536x64, .f32⟩
  | .hbm, ⟨28, _⟩ => ⟨S_, .f32⟩
  | .hbm, ⟨29, _⟩ => ⟨S65536, .f32⟩
  | .hbm, ⟨30, _⟩ => ⟨S_, .f32⟩
  | .hbm, ⟨31, _⟩ => ⟨S65536, .f32⟩
  | .hbm, ⟨32, _⟩ => ⟨S65536, .f32⟩
  | .hbm, ⟨33, _⟩ => ⟨S65536x1, .f32⟩
  | .hbm, ⟨34, _⟩ => ⟨S65536x64, .f32⟩
  | .hbm, ⟨35, _⟩ => ⟨S65536x64, .f32⟩
  | .hbm, ⟨36, _⟩ => ⟨S65536x64, .f32⟩
  | .hbm, ⟨37, _⟩ => ⟨S_, .f32⟩
  | .hbm, ⟨38, _⟩ => ⟨S65536, .f32⟩
  | .hbm, ⟨39, _⟩ => ⟨S65536x1, .f32⟩
  | .hbm, ⟨40, _⟩ => ⟨S65536x64, .f32⟩
  | .hbm, ⟨41, _⟩ => ⟨S65536x64, .f32⟩
  | .hbm, ⟨42, _⟩ => ⟨S65536x128, .f32⟩
  | .hbm, ⟨43, _⟩ => ⟨S65536x128, .f32⟩
  | .hbm, ⟨44, _⟩ => ⟨S16x4096x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  reducesTo_S16x4096x128_S16x4096_d2 : S16x4096x128.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x128_0_1_2 : S16x4096x1.BroadcastsInDim S16x4096x128 (![0, 1, 2] : Fin 3 → Fin S16x4096x128.rank)
  shapeCasts_S16x4096x128_S65536x128 : S16x4096x128.ShapeCasts S65536x128
  reducesTo_S64x128_S64_d1 : S64x128.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  transposes_S64x128_S128x64_1_0 : S64x128.Transposes [1, 0] S128x64
  bcast_S_S65536x64 : S_.BroadcastsInDim S65536x64 (![] : Fin 0 → Fin S65536x64.rank)
  reducesTo_S65536x64_S65536_d1 : S65536x64.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  shapeCasts_S65536x128_S16x4096x128 : S65536x128.ShapeCasts S16x4096x128
  dot_S65536x128_S128x64_S65536x64_1_0_0_1_n_n_wf : DotDims.WF S65536x128 S128x64 S65536x64 [1] [0] [0] [1] [] []
  dot_S65536x64_S64x128_S65536x128_1_0_0_1_n_n_wf : DotDims.WF S65536x64 S64x128 S65536x128 [1] [0] [0] [1] [] []

variable [Facts₀]

def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf

class Facts : Prop extends Facts₀ where

variable [Facts]
-- ==== Proof.LibRowColumn.lean ====
/-
  Rows reduced to a column, and a column spread back over the rows, read at an index given by its coordinates.

  A matrix `v` of shape `[a, b]` is reduced along its rows (a sum, or a maximum folded from a starting word), the
  `a` results are laid out as the column `[a, 1]`, and the column is spread over `[a, b]` again: the pattern of a
  row norm or a softmax denominator kept with its axis. Entry `(p, c)` of the spread column is the reduction of
  row `p`, whatever `c`:
    • `shapeCast_a_a1_apply`     a vector `[a]` laid out as the column `[a, 1]` holds entry `p` at `(p, 0)`;
    • `broadcastTo_a1_ab_apply`  a column spread over `[a, b]` holds the column's entry `p` at every `(p, c)`;
    • `rowSum_column_apply`      on the extended reals the column of row sums holds `∑ k, v (p, k)` at `(p, 0)`;
    • `rowMax_column_apply`      and the column of row maxima the fold of `max` over the row from the starting word;
    • `divByColumn_apply`, `subColumn_apply`  a matrix divided by, or lessened by, a spread column: entry `(p, c)`
      meets the column's entry `p`.
  The two reductions are stated for exact arithmetic on the extended reals, where a sum of a row is the plain finite
  sum and a maximum is the lattice maximum, in whatever order the entries are met.
-/
import Idealize.ShloMosaic.Lib.ValueLayout
import Idealize.ShloMosaic.PureOps.Ideal.Laws

namespace Cert.RowColumn

open Idealize.ShloMosaic Idealize.ShloMosaic.ValueIdx

variable {α : Type}

/-- A vector `[a]` laid out as the column `[a, 1]` reads, at `(p, u)`, the vector's entry `p`: the column's
    row-major position `p · 1 + u` is `p`, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `[a, b]` reads, at `(p, c)`, the column's entry `p`: the row coordinate is kept
    (were `a = 1` it could only be `0`), the unit axis is read at `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sums of the rows of `v`, kept as a column: at `(p, u)` the sum of row `p`. The reduced index `p` with the
    coordinate `k` put back on the summed axis is `(p, k)`. -/
theorem rowSum_column_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v 0x00000000#32 h hφ hacc) hc (ix2 p u)
      = ∑ k : Fin b, v (ix2 p k) :=
  (shapeCast_a_a1_apply _ hc p u).trans
    ((Ideal.multiReduction_add_single v 0x00000000#32 h hφ hacc (ix1 p)).trans
      (Finset.sum_congr rfl fun k _ => congrArg v (funext fun ax => Fin.ext (by
        match ax with
        | ⟨0, _⟩ => rfl
        | ⟨1, _⟩ => rfl))))

/-- The maxima of the rows of `v`, folded from the word `w`, kept as a column: at `(p, u)` the fold of `max` over
    row `p` from `w`'s value. -/
theorem rowMax_column_apply {a b : ℕ} (v : FVec Ideal ⟨2, ![a, b]⟩ .f32) (w : BitVec 32)
    (h : (⟨2, ![a, b]⟩ : Shape).Reduces [1] ⟨1, ![a]⟩) (hφ : FKind.Formats .f32)
    (hacc : w = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ v w h hφ hacc) hc (ix2 p u)
      = (Finset.univ : Finset (Fin b)).fold max (Ideal.ofBits .f32 w) (fun k => v (ix2 p k)) :=
  (shapeCast_a_a1_apply _ hc p u).trans
    ((Ideal.multiReduction_maximumf_single v w h hφ hacc (ix1 p)).trans
      (congrArg (fun f => (Finset.univ : Finset (Fin b)).fold max (Ideal.ofBits .f32 w) f)
        (funext fun k => congrArg v (funext fun ax => Fin.ext (by
          match ax with
          | ⟨0, _⟩ => rfl
          | ⟨1, _⟩ => rfl)))))

/-- A matrix divided entry by entry by a column spread over its rows: entry `(p, c)` over the column's entry `p`. -/
theorem divByColumn_apply {a b : ℕ} (v : FVec Ideal ⟨2, ![a, b]⟩ .f32) (col : FVec Ideal ⟨2, ![a, 1]⟩ .f32)
    (hb : (⟨2, ![a, 1]⟩ : Shape).Broadcasts ⟨2, ![a, b]⟩) (p : Fin a) (c : Fin b) :
    divf v (broadcastTo ⟨2, ![a, b]⟩ col hb) (ix2 p c) = Ideal.div (v (ix2 p c)) (col (ix2 p (0 : Fin 1))) :=
  (divf_apply _ _ _).trans (congrArg (Ideal.div (v (ix2 p c))) (broadcastTo_a1_ab_apply col hb p c))

/-- A matrix lessened entry by entry by a column spread over its rows: entry `(p, c)` less the column's entry `p`. -/
theorem subColumn_apply {a b : ℕ} (v : FVec Ideal ⟨2, ![a, b]⟩ .f32) (col : FVec Ideal ⟨2, ![a, 1]⟩ .f32)
    (hb : (⟨2, ![a, 1]⟩ : Shape).Broadcasts ⟨2, ![a, b]⟩) (p : Fin a) (c : Fin b) :
    subf v (broadcastTo ⟨2, ![a, b]⟩ col hb) (ix2 p c) = v (ix2 p c) - col (ix2 p (0 : Fin 1)) :=
  (subf_apply _ _ _).trans (congrArg (v (ix2 p c) - ·) (broadcastTo_a1_ab_apply col hb p c))

end Cert.RowColumn
-- ==== Proof.RowSpec.lean ====
/-
  What both programs compute, one row at a time, on the extended reals.

  A row `x` of 128 entries is brought to unit length, `x̂ = x / max (‖x‖, ε)` with `‖x‖ = sqrt (∑ x_k²)`, and so is
  each of the 64 rows `m_j` of the memory bank. The row's score against bank row `j` is the inner product over the
  temperature, `s_j = ⟨x̂, m̂_j⟩ / τ`; its attention weights are the softmax of the scores with the largest score
  subtracted, `a_j = exp (s_j − max s) / ∑_j' exp (s_j' − max s)`; and the result row is the unit row plus what the
  weights retrieve from the bank, `x̂ + ∑_j a_j · m̂_j`.

  `ε`, `τ` and the starting value of the maximum are kept as the words both programs print for them: the two sides
  carry the same words, so their values are never needed. The maximum is the fold of `max` over the 64 scores from
  that starting value; taking `max` with the starting value once more changes nothing (`max_start_rowMax`), because
  the fold is already at least its starting value. No law used here needs an entry to be finite.

  The whole result: the [16, 4096, 128] input is read as 65536 rows, row `r` being row `r % 4096` of batch
  `r / 4096`, and `flatResult` is the [65536, 128] array of result rows.
-/
import Idealize.ShloMosaic.PureOps.Ideal
import Idealize.ShloMosaic.Lib.ValueIdx
import Mathlib.Data.Finset.Fold

noncomputable section

namespace Cert.RowSpec

open Idealize.ShloMosaic Idealize.ShloMosaic.ValueIdx

/-- The floor `ε` under a norm: the value of its word. -/
def normFloor : EReal := Ideal.ofBits .f32 0x2B8CBCCC#32
/-- The temperature `τ`: the value of its word. -/
def temperature : EReal := Ideal.ofBits .f32 0x3D8F5C29#32
/-- What the maximum of a row of scores is folded from: the value of its word. -/
def maxStart : EReal := Ideal.ofBits .f32 0xFF800000#32

/-- A row brought to unit length: each entry over the larger of the row's norm and `ε`. -/
def unitRow (v : Fin 128 → EReal) (k : Fin 128) : EReal :=
  Ideal.div (v k) (max (Ideal.sqrt (∑ k' : Fin 128, v k' * v k')) normFloor)

/-- The score of row `x` against bank row `j`: the inner product of the two unit rows, over `τ`. -/
def score (M : Fin 64 → Fin 128 → EReal) (x : Fin 128 → EReal) (j : Fin 64) : EReal :=
  Ideal.div (∑ k : Fin 128, unitRow x k * unitRow (M j) k) temperature

/-- The largest of the 64 scores, folded from the starting value. -/
def rowMax (s : Fin 64 → EReal) : EReal := (Finset.univ : Finset (Fin 64)).fold max maxStart s

/-- The softmax weight of score `j`, the largest score subtracted from every exponent. -/
def weight (s : Fin 64 → EReal) (j : Fin 64) : EReal :=
  Ideal.div (Ideal.exp (s j - rowMax s)) (∑ j' : Fin 64, Ideal.exp (s j' - rowMax s))

/-- The result row: the unit row plus the bank's unit rows weighted by the attention. -/
def enhance (M : Fin 64 → Fin 128 → EReal) (x : Fin 128 → EReal) (k : Fin 128) : EReal :=
  unitRow x k + ∑ j : Fin 64, weight (score M x) j * unitRow (M j) k

/-- The fold of `max` is at least what it starts from, so one more `max` with the start is the fold itself. -/
theorem max_start_rowMax (s : Fin 64 → EReal) : max maxStart (rowMax s) = rowMax s :=
  max_eq_right ((Finset.le_fold_max _).mpr (Or.inl le_rfl))

/-- The batch that flat row `r` lies in. -/
def rowBatch (r : Fin 65536) : Fin 16 := ⟨r.val / 4096, by have := r.isLt; omega⟩
/-- Its position inside the batch. -/
def rowPos (r : Fin 65536) : Fin 4096 := ⟨r.val % 4096, by omega⟩

/-- The 65536 result rows of the [16, 4096, 128] input `X` against the bank `M`. -/
def flatResult (X : (⟨3, ![16, 4096, 128]⟩ : Shape).Idx → EReal) (M : (⟨2, ![64, 128]⟩ : Shape).Idx → EReal) :
    (⟨2, ![65536, 128]⟩ : Shape).Idx → EReal :=
  fun i => enhance (fun j k => M (ix2 j k)) (fun k' => X (ix3 (rowBatch (i 0)) (rowPos (i 0)) k')) (i 1)

/-- Entry `(r, k)` of the result is entry `k` of the result row of input row `r`. -/
theorem flatResult_apply (X : (⟨3, ![16, 4096, 128]⟩ : Shape).Idx → EReal) (M : (⟨2, ![64, 128]⟩ : Shape).Idx → EReal)
    (r : Fin 65536) (k : Fin 128) :
    flatResult X M (ix2 r k) = enhance (fun j k => M (ix2 j k)) (fun k' => X (ix3 (rowBatch r) (rowPos r) k')) k := rfl

end Cert.RowSpec

end
-- ==== Proof.PayloadRows.lean ====
/-
  What the kernel body stores, entry by entry, on the extended reals.

  The body loads a block `x` of 4096 rows and the whole bank `m` of 64 rows and stores one array, the sum of two
  terms. Stage by stage, each read at an entry:
    • `bankUnit`, `blockUnit`  every row over the larger of its norm and `ε`: entry `(p, k)` is `unitRow` of row `p`;
    • `scores`    the block's unit rows times the transposed bank's, over `τ`: entry `(p, j)` is the inner product of
                  unit row `p` with the bank's unit row `j`, over `τ` (a matrix product into a zero accumulator is the
                  plain sum over the contracted coordinate; the transpose swaps the bank's two coordinates);
    • `shifted`   `exp` of each score less its row's largest; `weights`: each over its row's sum;
    • `result`    the block's unit rows plus the weights times the bank's unit rows.
  So entry `(p, k)` of what is stored is `enhance` of the bank's rows and the block's row `p`, at `k`: it depends
  on row `p` of the block only.
-/
import proofs.«137483_g85598698209303_cont_9to1_m_192_2_alg».proof.Proof.Gen.KernelIdeal.Skeleton
import proofs.«137483_g85598698209303_cont_9to1_m_192_2_alg».proof.Proof.LibRowColumn
import proofs.«137483_g85598698209303_cont_9to1_m_192_2_alg».proof.Proof.RowSpec
import Idealize.ShloMosaic.Lib.ValueLayout
import Idealize.ShloMosaic.PureOps.Ideal.Laws

noncomputable section

namespace Cert.KernelIdeal.PayloadRows

open Idealize.ShloMosaic Idealize.ShloMosaic.ValueIdx Cert.KernelIdeal Cert.KernelIdeal.Gen Cert.RowSpec Cert.RowColumn

/-! ## Rows brought to unit length -/

/-- Every row of an `[a, 128]` matrix over the larger of its norm and `ε`: the sum of the row's squares kept as a
    column, its square root, the floor, the column spread back, the quotient. -/
theorem unitRows_apply {a : ℕ} (v : FVec Ideal ⟨2, ![a, 128]⟩ .f32)
    (h : (⟨2, ![a, 128]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, 128]⟩)
    (p : Fin a) (k : Fin 128) :
    divf v (broadcastTo ⟨2, ![a, 128]⟩
        (maximumf (sqrt (shapeCast ⟨2, ![a, 1]⟩ (multiReduction .add [1] ⟨1, ![a]⟩ (mulf v v) 0x00000000#32 h hφ hacc) hc))
          (broadcast ⟨2, ![a, 1]⟩ (Scalar.ofBits (F := Ideal) .f32 0x2B8CBCCC#32))) hb) (ix2 p k)
      = unitRow (fun k' => v (ix2 p k')) k := by
  unfold unitRow
  refine (divByColumn_apply v _ hb p k).trans (congrArg (Ideal.div (v (ix2 p k))) ?_)
  refine (maximumf_apply _ _ _).trans (congrArg₂ max ?_ rfl)
  exact congrArg Ideal.sqrt (rowSum_column_apply (mulf v v) h hφ hacc hc p 0)

/-- The bank's rows at unit length. -/
def bankUnit (x1 : FVec Ideal S64x128 .f32) : FVec Ideal S64x128 .f32 :=
  divf x1 (broadcastTo S64x128
    (maximumf (sqrt (shapeCast S64x1 (multiReduction .add [1] S64 (mulf x1 x1) 0x00000000#32 reduces_S64x128_S64 (.inl rfl) rfl) shapeCasts_S64_S64x1))
      (broadcast S64x1 (Scalar.ofBits (F := Ideal) .f32 0x2B8CBCCC#32))) broadcasts_S64x1_S64x128)

/-- The block's rows at unit length. -/
def blockUnit (y : FVec Ideal S4096x128 .f32) : FVec Ideal S4096x128 .f32 :=
  divf y (broadcastTo S4096x128
    (maximumf (sqrt (shapeCast S4096x1 (multiReduction .add [1] S4096 (mulf y y) 0x00000000#32 reduces_S4096x128_S4096 (.inl rfl) rfl) shapeCasts_S4096_S4096x1))
      (broadcast S4096x1 (Scalar.ofBits (F := Ideal) .f32 0x2B8CBCCC#32))) broadcasts_S4096x1_S4096x128)

theorem bankUnit_apply (x1 : FVec Ideal S64x128 .f32) (j : Fin 64) (k : Fin 128) :
    bankUnit x1 (ix2 j k) = unitRow (fun k' => x1 (ix2 j k')) k :=
  unitRows_apply x1 reduces_S64x128_S64 (.inl rfl) rfl shapeCasts_S64_S64x1 broadcasts_S64x1_S64x128 j k

theorem blockUnit_apply (y : FVec Ideal S4096x128 .f32) (p : Fin 4096) (k : Fin 128) :
    blockUnit y (ix2 p k) = unitRow (fun k' => y (ix2 p k')) k :=
  unitRows_apply y reduces_S4096x128_S4096 (.inl rfl) rfl shapeCasts_S4096_S4096x1 broadcasts_S4096x1_S4096x128 p k

/-! ## The two matrix products, as sums over the contracted coordinate -/

theorem lhs_scores_0 (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem lhs_scores_1 (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
theorem rhs_scores_0 (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
theorem rhs_scores_1 (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

/-- The [4096, 128] by [128, 64] product into a zero accumulator: entry `(p, j)` is `∑ k, A (p, k) · B (k, j)`. -/
theorem scoresProduct_apply (A : FVec Ideal S4096x128 .f32) (B : FVec Ideal S128x64 .f32) (p : Fin 4096) (j : Fin 64) :
    matmul dot_S4096x128_S128x64_S4096x64_1_0_0_1_n_n none A B (constant S4096x64 .f32 0x00000000#32) (ix2 p j)
      = ∑ k : Fin 128, A (ix2 p k) * B (ix2 k j) := by
  refine (Ideal.matmul_constant_zero_apply dot_S4096x128_S128x64_S4096x64_1_0_0_1_n_n none A B (ix2 p j)).trans ?_
  rw [← Equiv.sum_comp (contrEquiv1 dot_S4096x128_S128x64_S4096x64_1_0_0_1_n_n 128 rfl rfl).symm]
  refine Finset.sum_congr rfl fun k _ => ?_
  have hk := contrEquiv1_symm_val dot_S4096x128_S128x64_S4096x64_1_0_0_1_n_n 128 rfl rfl k
  have el : dot_S4096x128_S128x64_S4096x64_1_0_0_1_n_n.lhsIdx (ix2 p j) ((contrEquiv1 dot_S4096x128_S128x64_S4096x64_1_0_0_1_n_n 128 rfl rfl).symm k) = ix2 p k := funext fun a => Fin.ext (by
    match a with
    | ⟨0, _⟩ => exact lhs_scores_0 _ _
    | ⟨1, _⟩ => exact (lhs_scores_1 _ _).trans hk)
  have er : dot_S4096x128_S128x64_S4096x64_1_0_0_1_n_n.rhsIdx (ix2 p j) ((contrEquiv1 dot_S4096x128_S128x64_S4096x64_1_0_0_1_n_n 128 rfl rfl).symm k) = ix2 k j := funext fun a => Fin.ext (by
    match a with
    | ⟨0, _⟩ => exact (rhs_scores_0 _ _).trans hk
    | ⟨1, _⟩ => exact rhs_scores_1 _ _)
  rw [el, er]

theorem lhs_retrieve_0 (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl
theorem lhs_retrieve_1 (i : S4096x128.Idx) (q : dot_S4096x64_S64x128_S4096x128_1_0_0_1_n_n.contr.Idx) :
    (dot_S4096x64_S64x128_S4096x128_1_0_0_1_n_n.lhsIdx i q 1).val = (q ⟨0, by decide⟩).val :=
  dot_S4096x64_S64x128_S4096x128_1_0_0_1_n_n.lhsIdx_val_of_single rfl i q
theorem rhs_retrieve_0 (i : S4096x128.Idx) (q : dot_S4096x64_S64x128_S4096x128_1_0_0_1_n_n.contr.Idx) :
    (dot_S4096x64_S64x128_S4096x128_1_0_0_1_n_n.rhsIdx i q 0).val = (q ⟨0, by decide⟩).val :=
  dot_S4096x64_S64x128_S4096x128_1_0_0_1_n_n.rhsIdx_val_of_single rfl i q
theorem rhs_retrieve_1 (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl

/-- The [4096, 64] by [64, 128] product into a zero accumulator: entry `(p, k)` is `∑ j, A (p, j) · B (j, k)`. -/
theorem retrieveProduct_apply (A : FVec Ideal S4096x64 .f32) (B : FVec Ideal S64x128 .f32) (p : Fin 4096) (k : Fin 128) :
    matmul dot_S4096x64_S64x128_S4096x128_1_0_0_1_n_n none A B (constant S4096x128 .f32 0x00000000#32) (ix2 p k)
      = ∑ j : Fin 64, A (ix2 p j) * B (ix2 j k) := by
  refine (Ideal.matmul_constant_zero_apply dot_S4096x64_S64x128_S4096x128_1_0_0_1_n_n none A B (ix2 p k)).trans ?_
  rw [← Equiv.sum_comp (contrEquiv1 dot_S4096x64_S64x128_S4096x128_1_0_0_1_n_n 64 rfl rfl).symm]
  refine Finset.sum_congr rfl fun j _ => ?_
  have hj := contrEquiv1_symm_val dot_S4096x64_S64x128_S4096x128_1_0_0_1_n_n 64 rfl rfl j
  have el : dot_S4096x64_S64x128_S4096x128_1_0_0_1_n_n.lhsIdx (ix2 p k) ((contrEquiv1 dot_S4096x64_S64x128_S4096x128_1_0_0_1_n_n 64 rfl rfl).symm j) = ix2 p j := funext fun a => Fin.ext (by
    match a with
    | ⟨0, _⟩ => exact lhs_retrieve_0 _ _
    | ⟨1, _⟩ => exact (lhs_retrieve_1 _ _).trans hj)
  have er : dot_S4096x64_S64x128_S4096x128_1_0_0_1_n_n.rhsIdx (ix2 p k) ((contrEquiv1 dot_S4096x64_S64x128_S4096x128_1_0_0_1_n_n 64 rfl rfl).symm j) = ix2 j k := funext fun a => Fin.ext (by
    match a with
    | ⟨0, _⟩ => exact (rhs_retrieve_0 _ _).trans hj
    | ⟨1, _⟩ => exact rhs_retrieve_1 _ _)
  rw [el, er]

/-! ## Scores, weights, and what is stored -/

/-- The scores of the block's rows against the bank's: the product of the unit rows with the transposed unit bank, over `τ`. -/
def scores (y : FVec Ideal S4096x128 .f32) (x1 : FVec Ideal S64x128 .f32) : FVec Ideal S4096x64 .f32 :=
  divf (matmul dot_S4096x128_S128x64_S4096x64_1_0_0_1_n_n none (blockUnit y) (transpose S128x64 [1, 0] (bankUnit x1) transposes_S64x128_p1_0_S128x64)
      (constant S4096x64 .f32 0x00000000#32))
    (broadcast S4096x64 (Scalar.ofBits (F := Ideal) .f32 0x3D8F5C29#32))

theorem scores_apply (y : FVec Ideal S4096x128 .f32) (x1 : FVec Ideal S64x128 .f32) (p : Fin 4096) (j : Fin 64) :
    scores y x1 (ix2 p j) = score (fun j k => x1 (ix2 j k)) (fun k' => y (ix2 p k')) j := by
  unfold scores score
  refine (divf_apply _ _ _).trans (congrArg₂ Ideal.div ?_ rfl)
  refine (scoresProduct_apply _ _ p j).trans (Finset.sum_congr rfl fun k _ => congrArg₂ (· * ·) (blockUnit_apply y p k) ?_)
  exact (transpose_ix2_apply _ transposes_S64x128_p1_0_S128x64 k j).trans (bankUnit_apply x1 j k)

/-- `exp` of each score less the largest score of its row. -/
def shifted (y : FVec Ideal S4096x128 .f32) (x1 : FVec Ideal S64x128 .f32) : FVec Ideal S4096x64 .f32 :=
  exp (subf (scores y x1) (broadcastTo S4096x64
    (shapeCast S4096x1 (multiReduction .maximumf [1] S4096 (scores y x1) 0xFF800000#32 reduces_S4096x64_S4096 (.inl rfl) rfl) shapeCasts_S4096_S4096x1)
    broadcasts_S4096x1_S4096x64))

theorem shifted_apply (y : FVec Ideal S4096x128 .f32) (x1 : FVec Ideal S64x128 .f32) (p : Fin 4096) (j : Fin 64) :
    shifted y x1 (ix2 p j)
      = Ideal.exp (scores y x1 (ix2 p j) - rowMax (fun j' => scores y x1 (ix2 p j'))) := by
  unfold shifted rowMax
  refine congrArg Ideal.exp ((subColumn_apply (scores y x1) _ broadcasts_S4096x1_S4096x64 p j).trans
    (congrArg (scores y x1 (ix2 p j) - ·) ?_))
  exact rowMax_column_apply (scores y x1) 0xFF800000#32 reduces_S4096x64_S4096 (.inl rfl) rfl shapeCasts_S4096_S4096x1 p 0

/-- The attention weights: each shifted exponential over the sum of its row's. -/
def weights (y : FVec Ideal S4096x128 .f32) (x1 : FVec Ideal S64x128 .f32) : FVec Ideal S4096x64 .f32 :=
  divf (shifted y x1) (broadcastTo S4096x64
    (shapeCast S4096x1 (multiReduction .add [1] S4096 (shifted y x1) 0x00000000#32 reduces_S4096x64_S4096 (.inl rfl) rfl) shapeCasts_S4096_S4096x1)
    broadcasts_S4096x1_S4096x64)

theorem weights_apply (y : FVec Ideal S4096x128 .f32) (x1 : FVec Ideal S64x128 .f32) (p : Fin 4096) (j : Fin 64) :
    weights y x1 (ix2 p j) = weight (fun j' => scores y x1 (ix2 p j')) j := by
  unfold weights weight
  refine (divByColumn_apply (shifted y x1) _ broadcasts_S4096x1_S4096x64 p j).trans
    (congrArg₂ Ideal.div (shifted_apply y x1 p j) ?_)
  exact (rowSum_column_apply (shifted y x1) reduces_S4096x64_S4096 (.inl rfl) rfl shapeCasts_S4096_S4096x1 p 0).trans
    (Finset.sum_congr rfl fun j' _ => shifted_apply y x1 p j')

/-- What is stored: the unit rows plus the weights' product with the unit bank. -/
def result (y : FVec Ideal S4096x128 .f32) (x1 : FVec Ideal S64x128 .f32) : FVec Ideal S4096x128 .f32 :=
  addf (blockUnit y) (matmul dot_S4096x64_S64x128_S4096x128_1_0_0_1_n_n none (weights y x1) (bankUnit x1) (constant S4096x128 .f32 0x00000000#32))

theorem result_apply (y : FVec Ideal S4096x128 .f32) (x1 : FVec Ideal S64x128 .f32) (p : Fin 4096) (k : Fin 128) :
    result y x1 (ix2 p k) = enhance (fun j k => x1 (ix2 j k)) (fun k' => y (ix2 p k')) k := by
  unfold result enhance
  refine (addf_apply _ _ _).trans (congrArg₂ (· + ·) (blockUnit_apply y p k) ?_)
  refine (retrieveProduct_apply _ _ p k).trans
    (Finset.sum_congr rfl fun j _ => congrArg₂ (· * ·) ?_ (bankUnit_apply x1 j k))
  exact (weights_apply y x1 p j).trans (congrArg (fun s => weight s j) (funext fun j' => scores_apply y x1 p j'))

/-- The body's stored value is `result` of the loaded block (through a shape cast to its own shape) and the bank. -/
theorem payload_eq (x0 : FVec Ideal S4096x128 .f32) (x1 : FVec Ideal S64x128 .f32) :
    k0_pay1 (F := Ideal) x0 x1 = result (shapeCast S4096x128 x0 shapeCasts_S4096x128_S4096x128) x1 := rfl

/-- Entry `(p, k)` of what the body stores: the result row of the block's row `p` against the bank, at `k`. -/
theorem payload_apply (x0 : FVec Ideal S4096x128 .f32) (x1 : FVec Ideal S64x128 .f32) (p : Fin 4096) (k : Fin 128) :
    k0_pay1 (F := Ideal) x0 x1 (ix2 p k) = enhance (fun j k => x1 (ix2 j k)) (fun k' => x0 (ix2 p k')) k := by
  rw [payload_eq, shapeCast_self]
  exact result_apply x0 x1 p k

end Cert.KernelIdeal.PayloadRows

end
-- ==== Proof.ArrayValue.lean ====
/-
  The array the kernel's region leaves, and what the program returns, on the extended reals.

  Before the region the host reads the [16, 4096, 128] input as 65536 rows of 128; after it, it reads the region's
  [65536, 128] array back as [16, 4096, 128]. The region runs over 16 points. Point `t` is given rows
  `4096 · t … 4096 · t + 4095` of the flat input and the whole bank, and writes rows `4096 · t …` of the output:
  its block index on the row axis is `t` for the input and the output alike, and `0` on the other axis and for the bank.

  Entry `(p, k)` of what point `t` writes back is the result row of the block's row `p`, at `k` (the stored value read
  entry by entry), and the block's row `p` is flat row `4096 · t + p` of the input, which is row `p` of batch `t`. So
  what point `t` writes back is block `t` of ONE array, `flatResult` of the two arguments; the 16 blocks cover the
  65536 rows (row `r` lies in block `r / 4096`), so the region leaves that array; and the program returns it read as
  [16, 4096, 128], the arguments unchanged.
-/
import proofs.«137483_g85598698209303_cont_9to1_m_192_2_alg».proof.Proof.Gen.KernelIdeal.Frame
import proofs.«137483_g85598698209303_cont_9to1_m_192_2_alg».proof.Proof.PayloadRows
import Idealize.ShloMosaic.Lib.Pipeline.Value
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.SL.Sem Idealize.ShloMosaic.StableHlo
open Cert.KernelIdeal Cert.KernelIdeal.Gen Cert.KernelIdeal.PayloadRows Cert.RowSpec

/-! ## Rows of the flat input -/

/-- The [16, 4096, 128] array read as 65536 rows: entry `(r, k)` is entry `k` of row `r % 4096` of batch `r / 4096`
    (both sit at row-major position `r · 128 + k`). -/
theorem flatten_apply {α : Type} (Y : (⟨3, ![16, 4096, 128]⟩ : Shape).Idx → α)
    (h : (⟨3, ![16, 4096, 128]⟩ : Shape).ShapeCasts ⟨2, ![65536, 128]⟩) (r : Fin 65536) (k : Fin 128) :
    shapeCast ⟨2, ![65536, 128]⟩ Y h (ix2 r k) = Y (ix3 (rowBatch r) (rowPos r) k) :=
  shapeCast_apply Y h _ _ (by
    rw [Shape.rowMajor_val_three, Shape.rowMajor_val_two]
    show (r.val / 4096 * 4096 + r.val % 4096) * 128 + k.val = r.val * 128 + k.val
    omega)

/-- Two arrays of a rank-2 shape agree when they agree at every pair of coordinates. -/
theorem ext_ix2 {α : Type} {a b : ℕ} {f g : (⟨2, ![a, b]⟩ : Shape).Idx → α}
    (h : ∀ (p : Fin a) (k : Fin b), f (ix2 p k) = g (ix2 p k)) : f = g :=
  funext fun y => by rw [eq_ix2 y]; exact h _ _

/-- What a point stores, when its block's row `p` is flat row `r` of the input and its bank is the bank: entry
    `(p, k)` is entry `(r, k)` of the array of result rows. -/
theorem stored_eq_flat (x0 : FVec Ideal S4096x128 .f32) (x1 M : FVec Ideal S64x128 .f32) (X : FVec Ideal S16x4096x128 .f32)
    (r : Fin 65536) (p : Fin 4096) (k : Fin 128)
    (h0 : ∀ k' : Fin 128, x0 (ix2 p k') = X (ix3 (rowBatch r) (rowPos r) k'))
    (h1 : ∀ (j : Fin 64) (k' : Fin 128), x1 (ix2 j k') = M (ix2 j k')) :
    k0_pay1 (F := Ideal) x0 x1 (ix2 p k) = flatResult X M (ix2 r k) := by
  rw [payload_apply, flatResult_apply]
  have e0 : (fun k' => x0 (ix2 p k')) = fun k' => X (ix3 (rowBatch r) (rowPos r) k') := funext h0
  have e1 : (fun j k' => x1 (ix2 j k')) = fun j k' => M (ix2 j k') := funext fun j => funext (h1 j)
  rw [e0, e1]

/-! ## The region -/

variable (m : (ℓ : Loc nD τ sig) → Buf (Elt Ideal) ℓ) (ρ : Dev nD → PrngReg)

/-- The region finds the input read as 65536 rows. -/
theorem entry_flat (c : Dev nD) :
    (V m c main_call0_v0 : S65536x128.Idx → EReal)
      = shapeCast S65536x128 (m ((c : Thread nD τ).loc main_arg0)) shapeCasts_S16x4096x128_S65536x128 := by
  show StableHlo.after hostOps0 (fun b => m (c, b)) (Proc.devRef .tc main_call0_v0) = _
  after_results
  rfl

theorem hz : (![0, 0] : Fin 2 → Nat) = fun _ => 0 := funext fun a => by fin_cases a <;> rfl

/-- The printed index maps, decided over the 16 points: the input's and the output's block index is `(t, 0)`, the
    bank's `(0, 0)`. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT `t` WRITES BACK is block `t` of the array of result rows. -/
theorem flushed_eq (c : Dev nD) (t : Fin cfg0.N) :
    (dats m 0 c).flushed 2 t = ((cfg0.win 2).blk t).view.read (Elt Ideal)
      (flatResult (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz]
  simp only [View.ld_unit_zero (S := S4096x128) hz, View.ld_unit_zero (S := S64x128) hz]
  obtain ⟨e0, e1, e2, e3, e4, e5⟩ := idx_facts t
  have ht : t.val < grid0.N := t.isLt
  rw [N_0] at ht
  refine ext_ix2 (a := 4096) (b := 128) fun p k => ?_
  have hp := p.isLt
  have hr : t.val * 4096 + p.val < 65536 := by omega
  show k0_pay1 (F := Ideal) (iblk m c 0 t) (iblk m c 1 t) (ix2 p k)
    = flatResult (m ((c : Thread nD τ).loc main_arg0)) (m ((c : Thread nD τ).loc main_arg1)) (((cfg0.win 2).blk t).view.emb (ix2 p k))
  have hemb2 : ((cfg0.win 2).blk t).view.emb (ix2 p k) = ix2 (⟨t.val * 4096 + p.val, hr⟩ : Fin 65536) k := by
    funext a; apply Fin.ext
    match a with
    | ⟨0, _⟩ => show win0_2.index t (0 : Fin 2) * 4096 + 1 * p.val = t.val * 4096 + p.val; omega
    | ⟨1, _⟩ => show win0_2.index t (1 : Fin 2) * 128 + 1 * k.val = k.val; omega
  rw [hemb2]
  refine stored_eq_flat (iblk m c 0 t) (iblk m c 1 t) (m ((c : Thread nD τ).loc main_arg1)) (m ((c : Thread nD τ).loc main_arg0))
    ⟨t.val * 4096 + p.val, hr⟩ p k (fun k' => ?_) (fun j k' => ?_)
  · show V m c main_call0_v0 (((cfg0.win 0).blk t).view.emb (ix2 p k')) = _
    have hemb0 : ((cfg0.win 0).blk t).view.emb (ix2 p k') = ix2 (⟨t.val * 4096 + p.val, hr⟩ : Fin 65536) k' := by
      funext a; apply Fin.ext
      match a with
      | ⟨0, _⟩ => show win0_0.index t (0 : Fin 2) * 4096 + 1 * p.val = t.val * 4096 + p.val; omega
      | ⟨1, _⟩ => show win0_0.index t (1 : Fin 2) * 128 + 1 * k'.val = k'.val; omega
    rw [hemb0, entry_flat]
    exact flatten_apply _ _ _ _
  · show V m c main_arg1 (((cfg0.win 1).blk t).view.emb (ix2 j k')) = _
    have hemb1 : ((cfg0.win 1).blk t).view.emb (ix2 j k') = ix2 j k' := by
      funext a; apply Fin.ext
      match a with
      | ⟨0, _⟩ => show win0_1.index t (0 : Fin 2) * 64 + 1 * j.val = j.val; omega
      | ⟨1, _⟩ => show win0_1.index t (1 : Fin 2) * 128 + 1 * k'.val = k'.val; omega
    rw [hemb1, V_main_arg1]

/-- An index of the output array is in point `t`'s block iff each coordinate is in the block's range on its axis. -/
theorem mem_blk (t : Fin cfg0.N) (i : S65536x128.Idx) :
    i ∈ ((cfg0.win 2).blk t).view.set ↔ ∀ a : Fin 2, win0_2.index t a * S4096x128.size a ≤ (i a).val
      ∧ (i a).val < win0_2.index t a * S4096x128.size a + S4096x128.size a := by
  show i ∈ ((View.whole main_call0_v1).slice (win0_2.rect t)).set ↔ _
  rw [View.set_slice_whole, Rect.mem_set_unit]
  exact Iff.rfl

/-- Every index of the output array is in some point's block: row `r` in block `r / 4096`. -/
theorem cover (i : S65536x128.Idx) :
    ∃ t : Fin cfg0.N, (cfg0.win 2).flush t = true ∧ i ∈ ((cfg0.win 2).blk t).view.set := by
  have hi0 : (i 0).val < 65536 := (i 0).isLt
  have hi1 : (i 1).val < 128 := (i 1).isLt
  obtain ⟨t, htv⟩ : ∃ t : Fin cfg0.N, t.val = (i 0).val / 4096 :=
    ⟨⟨(i 0).val / 4096, by show _ < grid0.N; rw [N_0]; omega⟩, rfl⟩
  obtain ⟨e0, e1, e2, e3, e4, e5⟩ := idx_facts t
  refine ⟨t, flush0_2 t, ?_⟩
  rw [mem_blk]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 128 ≤ (i 1).val ∧ (i 1).val < win0_2.index t (1 : Fin 2) * 128 + 128
    omega

/-- THE ARRAY the region leaves: the array of result rows. -/
theorem final (c : Dev nD) : (dats m 0 c).arrAt 2 cfg0.N
    = flatResult (m ((c : Thread nD τ).loc main_arg0)) (m ((c : Thread nD τ).loc main_arg1)) :=
  (dats m 0 c).arrAt_eq_of_cover 2 _ (fun t _ => flushed_eq m c t) cover

/-! ## The program's result -/

/-- What the host's last line returns: the region's array read back as [16, 4096, 128]. -/
theorem tail_value (c : Dev nD) :
    (Pipeline.afterTail₀ cfgs (dats m) 0 (V0 m) [hostOps1] c main_v0 : S16x4096x128.Idx → EReal)
      = shapeCast S16x4096x128 (flatResult (m ((c : Thread nD τ).loc main_arg0)) (m ((c : Thread nD τ).loc main_arg1)))
          shapeCasts_S65536x128_S16x4096x128 := by
  unfold Pipeline.afterTail₀
  show StableHlo.after hostOps1 _ (Proc.devRef .tc main_v0) = _
  after_results
  exact congrArg (fun A : S65536x128.Idx → EReal => shapeCast S16x4096x128 A shapeCasts_S65536x128_S16x4096x128)
    ((Pipeline.withArrays_arr spec0 launch0.win.arr_inj c (V0 m c) (fun w => (dats m 0 c).arrAt w cfg0.N) 2).trans (final m c))

/-- THE RUN: every weakly fair execution ends with the result at the array of result rows read as [16, 4096, 128]
    (the frame run's post: the result is no array of the region, so it is what the host's last line leaves), and
    with both arguments as launched. -/
theorem run : θ_run defs (onTc (τ := τ) (main (F := Ideal))) ⟨m, fun _ => 0, ρ⟩ fun r => ∀ c : Dev nD,
      r.2.mem ((c.tc : Thread nD τ).loc main_v0)
        = shapeCast S16x4096x128 (flatResult (m ((c.tc : Thread nD τ).loc main_arg0)) (m ((c.tc : Thread nD τ).loc main_arg1)))
            shapeCasts_S65536x128_S16x4096x128
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v0 (Pipeline.mem_restRefs_of main_v0 (by decide) (by decide))).trans (tail_value m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.ArrayValue

end
-- ==== Proof.ReferenceRows.lean ====
/-
  What the reference computes before its last reshape, entry by entry, on the extended reals.

  The reference works on the whole input at once. It brings the rows of the [16, 4096, 128] input to unit length
  (the sum of squares over the last axis, kept as a unit axis; its square root; the floor `ε`; the quotient), reads the
  result as 65536 rows of 128, brings the bank's 64 rows to unit length the same way, and then, over the 65536 rows:
  the scores (the product with the transposed unit bank, over `τ`), each row's largest score (a fold of `max` from the
  starting value, and once more `max` with that value, which changes nothing), the exponentials of the scores less
  that maximum, each over its row's sum, their product with the unit bank, added to the unit rows.

  Flat row `r` of the input read as 65536 rows is row `r % 4096` of batch `r / 4096`: entry `(r, k)` sits at
  row-major position `r · 128 + k`, which is `((r / 4096) · 4096 + r % 4096) · 128 + k`. So entry `(r, k)` of the
  array the reference reshapes last is `enhance` of the bank's rows and that input row, at `k`: `RowSpec.flatResult`.
-/
import proofs.«137483_g85598698209303_cont_9to1_m_192_2_alg».proof.Proof.Gen.ReferenceIdeal.Read
import proofs.«137483_g85598698209303_cont_9to1_m_192_2_alg».proof.Proof.RowSpec
import Idealize.ShloMosaic.PureOps.Ideal.Laws

noncomputable section

namespace Cert.ReferenceIdeal.RefRows

open Idealize.ShloMosaic Idealize.ShloMosaic.ValueIdx Cert.ReferenceIdeal Cert.ReferenceIdeal.Gen Cert.ReferenceIdeal.Read Cert.RowSpec

/-! ## The composed index maps, by coordinates -/

theorem idx15 (j : Fin 64) (k : Fin 128) : idx_main_v15 (ix2 j k) = ix2 j (0 : Fin 1) :=
  funext fun a => Fin.ext (by match a with | ⟨0, _⟩ => rfl | ⟨1, _⟩ => rfl)
theorem idx11 (j : Fin 64) : idx_main_v11 (ix2 j (0 : Fin 1)) = ix1 j :=
  funext fun a => Fin.ext (by match a with | ⟨0, _⟩ => rfl)
theorem idx10 (j : Fin 64) (k : Fin 128) : idx_main_v10 (ix1 j) k = ix2 j k :=
  funext fun a => Fin.ext (by match a with | ⟨0, _⟩ => rfl | ⟨1, _⟩ => rfl)
theorem idx17 (k : Fin 128) (j : Fin 64) : idx_main_v17 (ix2 k j) = ix2 j k :=
  funext fun a => Fin.ext (by match a with | ⟨0, _⟩ => rfl | ⟨1, _⟩ => rfl)

/-- Entry `(r, k)` of the input read as 65536 rows is entry `k` of row `r % 4096` of batch `r / 4096`. -/
theorem idx8 (r : Fin 65536) (k : Fin 128) : idx_main_v8 (ix2 r k) = ix3 (rowBatch r) (rowPos r) k :=
  funext fun a => Fin.ext (by
    have hr := r.isLt
    have hk := k.isLt
    match a with
    | ⟨0, _⟩ => show (r.val * 128 + k.val) / 524288 = r.val / 4096; omega
    | ⟨1, _⟩ => show (r.val * 128 + k.val) / 128 % 4096 = r.val % 4096; omega
    | ⟨2, _⟩ => show (r.val * 128 + k.val) % 128 = k.val; omega)
theorem idx6 (b : Fin 16) (p : Fin 4096) (k : Fin 128) : idx_main_v6 (ix3 b p k) = ix3 b p (0 : Fin 1) :=
  funext fun a => Fin.ext (by match a with | ⟨0, _⟩ => rfl | ⟨1, _⟩ => rfl | ⟨2, _⟩ => rfl)
theorem idx2 (b : Fin 16) (p : Fin 4096) : idx_main_v2 (ix3 b p (0 : Fin 1)) = ix2 b p :=
  funext fun a => Fin.ext (by match a with | ⟨0, _⟩ => rfl | ⟨1, _⟩ => rfl)
theorem idx1 (b : Fin 16) (p : Fin 4096) (k : Fin 128) : idx_main_v1 (ix2 b p) k = ix3 b p k :=
  funext fun a => Fin.ext (by match a with | ⟨0, _⟩ => rfl | ⟨1, _⟩ => rfl | ⟨2, _⟩ => rfl)

theorem lidx18 (r : Fin 65536) (j : Fin 64) (k : Fin 128) : lidx_main_v18 (ix2 r j) k = ix2 r k :=
  funext fun a => Fin.ext (by match a with | ⟨0, _⟩ => rfl | ⟨1, _⟩ => rfl)
theorem ridx18 (r : Fin 65536) (j : Fin 64) (k : Fin 128) : ridx_main_v18 (ix2 r j) k = ix2 k j :=
  funext fun a => Fin.ext (by match a with | ⟨0, _⟩ => rfl | ⟨1, _⟩ => rfl)
theorem idx25 (r : Fin 65536) (j : Fin 64) : idx_main_v25 (ix2 r j) = ix2 r (0 : Fin 1) :=
  funext fun a => Fin.ext (by match a with | ⟨0, _⟩ => rfl | ⟨1, _⟩ => rfl)
theorem idx24 (r : Fin 65536) : idx_main_v24 (ix2 r (0 : Fin 1)) = ix1 r :=
  funext fun a => Fin.ext (by match a with | ⟨0, _⟩ => rfl)
theorem idx30 (r : Fin 65536) (j : Fin 64) : idx_main_v30 (ix2 r j) = ix2 r (0 : Fin 1) :=
  funext fun a => Fin.ext (by match a with | ⟨0, _⟩ => rfl | ⟨1, _⟩ => rfl)
theorem idx29 (r : Fin 65536) : idx_main_v29 (ix2 r (0 : Fin 1)) = ix1 r :=
  funext fun a => Fin.ext (by match a with | ⟨0, _⟩ => rfl)
theorem idx28 (r : Fin 65536) (j : Fin 64) : idx_main_v28 (ix1 r) j = ix2 r j :=
  funext fun a => Fin.ext (by match a with | ⟨0, _⟩ => rfl | ⟨1, _⟩ => rfl)
theorem lidx32 (r : Fin 65536) (k : Fin 128) (j : Fin 64) : lidx_main_v32 (ix2 r k) j = ix2 r j :=
  funext fun a => Fin.ext (by match a with | ⟨0, _⟩ => rfl | ⟨1, _⟩ => rfl)
theorem ridx32 (r : Fin 65536) (k : Fin 128) (j : Fin 64) : ridx_main_v32 (ix2 r k) j = ix2 j k :=
  funext fun a => Fin.ext (by match a with | ⟨0, _⟩ => rfl | ⟨1, _⟩ => rfl)

/-! ## Stage by stage -/

variable (X : FVec Ideal S16x4096x128 .f32) (M : FVec Ideal S64x128 .f32)

/-- The bank's rows at unit length. -/
theorem bankUnit_apply (j : Fin 64) (k : Fin 128) :
    val_main_v16 (F := Ideal) M (ix2 j k) = unitRow (fun k' => M (ix2 j k')) k := by
  rw [val_main_v16_apply, val_main_v15_apply, idx15, val_main_v14_apply, val_main_v12_apply, val_main_v11_apply, idx11,
    val_main_v10_apply, val_main_v13_apply]
  simp only [idx10, val_main_v9_apply, val_main_cst_1_apply, val_main_cst_2_apply, Ideal.hostDivf_def, Ideal.maximumf_def,
    Ideal.hostUnary_sqrt_def, Ideal.mulf_def, Ideal.ofBits_def, Ideal.ofBits_zero_f32, zero_add]
  rfl

/-- The input's rows at unit length, read as 65536 rows. -/
theorem blockUnit_apply (r : Fin 65536) (k : Fin 128) :
    val_main_v8 (F := Ideal) X (ix2 r k) = unitRow (fun k' => X (ix3 (rowBatch r) (rowPos r) k')) k := by
  rw [val_main_v8_apply, idx8, val_main_v7_apply, val_main_v6_apply, idx6, val_main_v5_apply, val_main_v3_apply,
    val_main_v2_apply, idx2, val_main_v1_apply, val_main_v4_apply]
  simp only [idx1, val_main_v0_apply, val_main_cst_apply, val_main_cst_0_apply, Ideal.hostDivf_def, Ideal.maximumf_def,
    Ideal.hostUnary_sqrt_def, Ideal.mulf_def, Ideal.ofBits_def, Ideal.ofBits_zero_f32, zero_add]
  rfl

/-- The scores of flat row `r`. -/
theorem scores_apply (r : Fin 65536) (j : Fin 64) :
    val_main_v20 (F := Ideal) X M (ix2 r j)
      = score (fun j k => M (ix2 j k)) (fun k' => X (ix3 (rowBatch r) (rowPos r) k')) j := by
  rw [val_main_v20_apply, val_main_v18_apply, val_main_v19_apply]
  simp only [lidx18, ridx18, val_main_v17_apply, idx17, blockUnit_apply, bankUnit_apply, val_main_cst_3_apply,
    Ideal.hostDivf_def, Ideal.ofBits_def]
  rfl

/-- The largest score of flat row `r`: the fold of `max` from the starting value, and `max` with it once more. -/
theorem rowMax_apply (r : Fin 65536) :
    val_main_v23 (F := Ideal) X M (ix1 r) = rowMax (fun j => val_main_v20 (F := Ideal) X M (ix2 r j)) := by
  have h21 : val_main_v21 (F := Ideal) X M (ix1 r) = rowMax (fun j => val_main_v20 (F := Ideal) X M (ix2 r j)) := by
    unfold val_main_v21
    rw [Host.reduce_eq_fold_single (α := Ideal .f32) (FloatOps.maximumf (F := Ideal) (φ := .f32))
      (val_main_v20 (F := Ideal) X M : S65536x64.Idx → Ideal .f32) _ reducesTo_S65536x64_S65536_d1 (by decide) h_S_]
    unfold rowMax maxStart
    exact congrArg (fun f => (Finset.univ : Finset (Fin 64)).fold max (Ideal.ofBits .f32 0xFF800000#32) f)
      (funext fun j => congrArg (val_main_v20 (F := Ideal) X M) (funext fun a => Fin.ext (by
        match a with
        | ⟨0, _⟩ => rfl
        | ⟨1, _⟩ => rfl)))
  rw [val_main_v23_apply, val_main_v22_apply, val_main_cst_5_apply, h21]
  exact max_start_rowMax _

/-- The exponential of each score less its row's largest. -/
theorem shifted_apply (r : Fin 65536) (j : Fin 64) :
    val_main_v27 (F := Ideal) X M (ix2 r j)
      = Ideal.exp (val_main_v20 (F := Ideal) X M (ix2 r j) - rowMax (fun j' => val_main_v20 (F := Ideal) X M (ix2 r j'))) := by
  rw [val_main_v27_apply, val_main_v26_apply, val_main_v25_apply, idx25, val_main_v24_apply, idx24, rowMax_apply]
  rfl

/-- The attention weights of flat row `r`. -/
theorem weights_apply (r : Fin 65536) (j : Fin 64) :
    val_main_v31 (F := Ideal) X M (ix2 r j) = weight (fun j' => val_main_v20 (F := Ideal) X M (ix2 r j')) j := by
  rw [val_main_v31_apply, val_main_v30_apply, idx30, val_main_v29_apply, idx29, val_main_v28_apply]
  simp only [idx28, shifted_apply, val_main_cst_6_apply, Ideal.hostDivf_def, Ideal.ofBits_def, Ideal.ofBits_zero_f32, zero_add]
  rfl

/-- Entry `(r, k)` of the array the reference reshapes last: the result row of input row `r`, at `k`. -/
theorem result_apply (r : Fin 65536) (k : Fin 128) :
    val_main_v33 (F := Ideal) X M (ix2 r k)
      = enhance (fun j k => M (ix2 j k)) (fun k' => X (ix3 (rowBatch r) (rowPos r) k')) k := by
  rw [val_main_v33_apply, val_main_v32_apply]
  simp only [lidx32, ridx32, weights_apply, scores_apply, blockUnit_apply, bankUnit_apply, Ideal.addf_def]
  rfl

/-- The array the reference reshapes last is the array of result rows. -/
theorem result_eq : val_main_v33 (F := Ideal) X M = flatResult X M :=
  funext fun i => by
    obtain ⟨r, k, rfl⟩ : ∃ (r : Fin 65536) (k : Fin 128), i = ix2 r k := ⟨i 0, i 1, eq_ix2 i⟩
    exact result_apply X M r k

end Cert.ReferenceIdeal.RefRows

end
-- ==== Proof.lean ====
/-
  The kernel and its reference compute one function on the extended reals.

  Both take a [16, 4096, 128] input and a [64, 128] memory bank. Every row of 128 entries, of the input and of the
  bank, is brought to unit length, `x̂ = x / max (‖x‖, ε)`; a row's scores against the 64 bank rows are the inner
  products over the temperature, `s_j = ⟨x̂, m̂_j⟩ / τ`; its attention weights are the softmax of the scores with the
  largest score subtracted; and the result row is `x̂ + ∑_j a_j · m̂_j` (Proof/RowSpec.lean).

  The kernel reads the input as 65536 rows, works through them in 16 blocks of 4096 rows with the whole bank at
  hand, and reads the result back as [16, 4096, 128]: each block's stored value, entry by entry, is the result row of
  the block's row (Proof/PayloadRows.lean), the 16 blocks make up the array of the 65536 result rows, and the program
  returns that array reshaped (Proof/ArrayValue.lean). The reference normalises the input before it flattens it, takes
  its products, sums and maxima over all 65536 rows at once, and adds one more `max` with the starting value `-∞` to
  each row's maximum, which changes nothing; the array it reshapes last is the same array of result rows
  (Proof/ReferenceRows.lean). Flat row `r` is row `r % 4096` of batch `r / 4096` on both sides, and the two last
  reshapes are one operation, so the two results are one array. Both sides carry `ε`, `τ` and `-∞` as the same words,
  a matrix product into a zero accumulator and a host product are the same finite sum, and a lane sum and a host sum
  likewise: nothing here needs an entry to be finite, so the precondition is not opened.

  The kernel's idealization rewrote no operation, so that it preserves the kernel is immediate; the three programs'
  runs end with their arguments unchanged by the frames of the two kernels and by the reference's run.
-/
import proofs.«137483_g85598698209303_cont_9to1_m_192_2_alg».proof.Defs
import proofs.«137483_g85598698209303_cont_9to1_m_192_2_alg».proof.Proof.Gen.Kernel
import proofs.«137483_g85598698209303_cont_9to1_m_192_2_alg».proof.Proof.Gen.Kernel.Skeleton
import proofs.«137483_g85598698209303_cont_9to1_m_192_2_alg».proof.Proof.Gen.Kernel.Launch
import proofs.«137483_g85598698209303_cont_9to1_m_192_2_alg».proof.Proof.Gen.Kernel.Points
import proofs.«137483_g85598698209303_cont_9to1_m_192_2_alg».proof.Proof.Gen.Kernel.Frame
import proofs.«137483_g85598698209303_cont_9to1_m_192_2_alg».proof.Proof.Gen.KernelIdeal
import proofs.«137483_g85598698209303_cont_9to1_m_192_2_alg».proof.Proof.Gen.KernelIdeal.Skeleton
import proofs.«137483_g85598698209303_cont_9to1_m_192_2_alg».proof.Proof.Gen.KernelIdeal.Launch
import proofs.«137483_g85598698209303_cont_9to1_m_192_2_alg».proof.Proof.Gen.KernelIdeal.Points
import proofs.«137483_g85598698209303_cont_9to1_m_192_2_alg».proof.Proof.Gen.KernelIdeal.Frame
import proofs.«137483_g85598698209303_cont_9to1_m_192_2_alg».proof.Proof.Gen.ReferenceIdeal
import proofs.«137483_g85598698209303_cont_9to1_m_192_2_alg».proof.Proof.Gen.Pre_finite_inputs
import proofs.«137483_g85598698209303_cont_9to1_m_192_2_alg».proof.Proof.Gen.ReferenceIdeal.Run
import proofs.«137483_g85598698209303_cont_9to1_m_192_2_alg».proof.Proof.Gen.ReferenceIdeal.Read
import proofs.«137483_g85598698209303_cont_9to1_m_192_2_alg».proof.Proof.ArrayValue
import proofs.«137483_g85598698209303_cont_9to1_m_192_2_alg».proof.Proof.ReferenceRows
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- From memories agreeing on the two arguments both programs end at the array of result rows read as
    [16, 4096, 128]: the kernel by its run, the reference because the array it reshapes last is that array. -/
theorem algebraic : Cert.algebraic_KernelIdeal_ReferenceIdeal := by
  intro m ρ m' ρ' _ hagree
  refine ⟨fun c => shapeCast Cert.KernelIdeal.S16x4096x128
      (Cert.RowSpec.flatResult (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      Cert.KernelIdeal.Gen.shapeCasts_S65536x128_S16x4096x128,
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2]
  unfold Cert.ReferenceIdeal.Read.val_main_v34
  rw [Cert.ReferenceIdeal.RefRows.result_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
